-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x2 .f32) (main_arg5 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x2 : Shape := ⟨2, ![50000, 2]⟩
abbrev S2000x2 : Shape := ⟨2, ![2000, 2]⟩
abbrev S850000x2 : Shape := ⟨2, ![850000, 2]⟩
abbrev S1x2 : Shape := ⟨2, ![1, 2]⟩

abbrev nBuf : Space → Nat
  | .hbm => 84
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x2, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x2, .f32⟩
  | .hbm, ⟨75, _⟩ => ⟨S850000x1, .f32⟩
  | .hbm, ⟨76, _⟩ => ⟨S850000x2, .f32⟩
  | .hbm, ⟨77, _⟩ => ⟨S850000x2, .f32⟩
  | .hbm, ⟨78, _⟩ => ⟨S_, .f32⟩
  | .hbm, ⟨79, _⟩ => ⟨S50000x2, .f32⟩
  | .hbm, ⟨80, _⟩ => ⟨S850000x1, .i32⟩
  | .hbm, ⟨81, _⟩ => ⟨S50000x2, .f32⟩
  | .hbm, ⟨82, _⟩ => ⟨S1x2, .f32⟩
  | .hbm, ⟨83, _⟩ => ⟨S50000x2, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x2, .f32⟩
  | .local _ .vmem, ⟨13, _⟩ => ⟨S2000x2, .f32⟩
  | .local _ .vmem, ⟨14, _⟩ => ⟨S2000x2, .f32⟩
  | .local _ .vmem, ⟨15, _⟩ => ⟨S2000x2, .f32⟩
  | .local _ .vmem, ⟨16, _⟩ => ⟨S2000x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x2_S256x2_0_0 : ∀ a, (![0, 0] : Fin 2 → Nat) a + S256x2.size a ≤ S256x2.size a
  h_S256x2 : 0 < S256x2.numel
  inb_S2000x2_S2000x2_0_0 : ∀ a, (![0, 0] : Fin 2 → Nat) a + S2000x2.size a ≤ S2000x2.size a
  h_S2000x2 : 0 < S2000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x2_S2000x2_1_0_0_1_n_n_wf : DotDims.WF S2000x256 S256x2 S2000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .f32 = 32 ∨ (Rect.block (s := S256x2) S256x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S50000x2.size a
  hwx2_2 : ∀ i : grid2.Coords, EltTy.bits .f32 = 32 ∨ (Rect.block (s := S50000x2) S2000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S50000x2.size a
  hwx3_0 : ∀ i : grid3.Coords, EltTy.bits .f32 = 32 ∨ (Rect.block (s := S50000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S50000x2.size a
  hwx3_2 : ∀ i : grid3.Coords, EltTy.bits .f32 = 32 ∨ (Rect.block (s := S50000x2) S2000x2.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x2, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x2, .f32⟩
  | .hbm, ⟨79, _⟩ => ⟨S850000x1, .f32⟩
  | .hbm, ⟨80, _⟩ => ⟨S850000x2, .f32⟩
  | .hbm, ⟨81, _⟩ => ⟨S850000x2, .f32⟩
  | .hbm, ⟨82, _⟩ => ⟨S_, .f32⟩
  | .hbm, ⟨83, _⟩ => ⟨S50000x2, .f32⟩
  | .hbm, ⟨84, _⟩ => ⟨S850000x1, .i32⟩
  | .hbm, ⟨85, _⟩ => ⟨S50000x2, .f32⟩
  | .hbm, ⟨86, _⟩ => ⟨S1x2, .f32⟩
  | .hbm, ⟨87, _⟩ => ⟨S50000x2, .f32⟩
  | .hbm, ⟨88, _⟩ => ⟨S50000x2, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.HostStretches.lean ====
import proofs.«168590_j52089363366228_1_alg».proof.Proof.Gen.KernelIdeal.Launch
import proofs.«168590_j52089363366228_1_alg».proof.Proof.RefRead
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v29)

/-- Each operation's result at its own buffer is its function's value, and at any other buffer what was there: the
    library's result lemmas applied by rewriting, which also reaches the operands listed inside a `concatenate`. -/
macro "operands_by_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable {F : FTy → Type} [FloatOps F]

/-! # The host stretches between the regions, read at the buffers later items take from them

Each stretch is a straight line of host operations; from ANY contents `U` of the buffers at its entry, what a buffer
holds after it is the operations' term over `U` at the buffers the stretch reads. Two of the stretches are the same
message passing at two widths: gather the rows of the node features by source node (a negative index counted from
the end), scale each gathered row by its edge's weight, and add it into the row of the destination node. -/

/-- Message passing over 256-wide node features `h`: edge `e` carries row `src e` of `h` times `nrm e` into row `dst e`. -/
def aggregate256 (h : (⟨S50000x256, .f32⟩ : BufTy).Contents (Elt F)) (src dst : (⟨S850000, .i32⟩ : BufTy).Contents (Elt F))
    (nrm : (⟨S850000, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant (F := F) S_ .f32 0x00000000#32))
    (broadcastInDim S850000x1 ![0] bcast_S850000_S850000x1_0 dst)
    (mulf
      (Host.gather gather_S50000x256_S850000x1_S850000x256_1_0_n_n_0_1_1256 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x256 ![0, 1] bcast_S850000x1_S850000x256_0_1 (broadcastInDim S850000x1 ![0] bcast_S850000_S850000x1_0 nrm)))

/-- The same over 2-wide node features. -/
def aggregate2 (h : (⟨S50000x2, .f32⟩ : BufTy).Contents (Elt F)) (src dst : (⟨S850000, .i32⟩ : BufTy).Contents (Elt F))
    (nrm : (⟨S850000, .f32⟩ : BufTy).Contents (Elt F)) : (⟨S50000x2, .f32⟩ : BufTy).Contents (Elt F) :=
  Host.scatterAdd scatter_S50000x2_S850000x1_S850000x2_1_0_0_1
    (broadcastInDim S50000x2 ![] bcast_S_S50000x2 (constant (F := F) S_ .f32 0x00000000#32))
    (broadcastInDim S850000x1 ![0] bcast_S850000_S850000x1_0 dst)
    (mulf
      (Host.gather gather_S50000x2_S850000x1_S850000x2_1_0_n_n_0_1_12 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x2 ![0, 1] bcast_S850000x1_S850000x2_0_1 (broadcastInDim S850000x1 ![0] bcast_S850000_S850000x1_0 nrm)))

variable (U : Valuation τ sig (Elt F))

/-! ## The stretch before the hidden layer's bias: the first message passing, and the bias row laid out as 1 × 256 -/

set_option maxHeartbeats 4000000 in
theorem hidden_messages : after hostOps1 U (Proc.devRef .tc main_v43)
    = aggregate256 (U (Proc.devRef .tc main_v30)) (U (Proc.devRef .tc main_v5)) (U (Proc.devRef .tc main_v6)) (U (Proc.devRef .tc main_v29)) := by
  after_results_simp
  rfl

set_option maxHeartbeats 4000000 in
theorem hidden_bias_row : after hostOps1 U (Proc.devRef .tc main_v44)
    = shapeCast S1x256 (U (Proc.devRef .tc main_arg3)) shapeCasts_S256_S1x256 := by
  after_results_simp
  rfl

/-! What this stretch does not write it keeps: the edge lists, the edge weights and the later layers' parameters. -/
set_option maxHeartbeats 4000000 in
theorem hidden_keeps_sources : after hostOps1 U (Proc.devRef .tc main_v5) = U (Proc.devRef .tc main_v5) := by
  after_results_simp <;> rfl
set_option maxHeartbeats 4000000 in
theorem hidden_keeps_targets : after hostOps1 U (Proc.devRef .tc main_v6) = U (Proc.devRef .tc main_v6) := by
  after_results_simp <;> rfl
set_option maxHeartbeats 4000000 in
theorem hidden_keeps_weights : after hostOps1 U (Proc.devRef .tc main_v29) = U (Proc.devRef .tc main_v29) := by
  after_results_simp <;> rfl
set_option maxHeartbeats 4000000 in
theorem hidden_keeps_arg4 : after hostOps1 U (Proc.devRef .tc main_arg4) = U (Proc.devRef .tc main_arg4) := by
  after_results_simp <;> rfl
set_option maxHeartbeats 4000000 in
theorem hidden_keeps_arg5 : after hostOps1 U (Proc.devRef .tc main_arg5) = U (Proc.devRef .tc main_arg5) := by
  after_results_simp <;> rfl

/-! ## The stretch before the output bias: the second message passing, and the bias row laid out as 1 × 2 -/

set_option maxHeartbeats 4000000 in
theorem output_messages : after hostOps3 U (Proc.devRef .tc main_v59)
    = aggregate2 (U (Proc.devRef .tc main_v46)) (U (Proc.devRef .tc main_v5)) (U (Proc.devRef .tc main_v6)) (U (Proc.devRef .tc main_v29)) := by
  after_results_simp
  rfl

set_option maxHeartbeats 4000000 in
theorem output_bias_row : after hostOps3 U (Proc.devRef .tc main_v60)
    = shapeCast S1x2 (U (Proc.devRef .tc main_arg5)) shapeCasts_S2_S1x2 := by
  after_results_simp
  rfl

/-! ## The stretch before the first region: the edge lists with the self loops appended, and the edge weights

Sources and targets are the two rows of the edge array, each followed by the node numbers 0 … 49999; the degree of
a node counts the edges that end in it; an edge's weight is the product of the inverse square roots of its two end
nodes' degrees (zero where a degree is zero). The reference computes the same three arrays by the same operations,
so they are named here by the reference's own stages. -/

/-- The buffers after the three lists of host operations that precede the first region. -/
abbrev afterEdgeSetup : Valuation τ sig (Elt F) := after hostOps0_2 (after hostOps0_1 (after hostOps0 U))

set_option maxHeartbeats 16000000 in
theorem edge_sources : afterEdgeSetup U (Proc.devRef .tc main_v5) = val_main_v5 (F := F) (U (Proc.devRef .tc main_arg1)) := by
  show after hostOps0_2 (after hostOps0_1 (after hostOps0 U)) (Proc.devRef .tc main_v5) = _
  after_results_simp
  operands_by_rw
  try simp only [TRef.ofBuf, TRef.toBuf, cast_eq]
  rfl

set_option maxHeartbeats 16000000 in
theorem edge_targets : afterEdgeSetup U (Proc.devRef .tc main_v6) = val_main_v6 (F := F) (U (Proc.devRef .tc main_arg1)) := by
  show after hostOps0_2 (after hostOps0_1 (after hostOps0 U)) (Proc.devRef .tc main_v6) = _
  after_results_simp
  operands_by_rw
  try simp only [TRef.ofBuf, TRef.toBuf, cast_eq]
  rfl

set_option maxHeartbeats 16000000 in
theorem edge_weights : afterEdgeSetup U (Proc.devRef .tc main_v29) = val_main_v29 (F := F) (U (Proc.devRef .tc main_arg1)) := by
  show after hostOps0_2 (after hostOps0_1 (after hostOps0 U)) (Proc.devRef .tc main_v29) = _
  after_results_simp
  operands_by_rw
  try simp only [TRef.ofBuf, TRef.toBuf, cast_eq]
  rfl

/-! The layers' parameters and the node features pass through untouched. -/
set_option maxHeartbeats 16000000 in
theorem setup_keeps_arg0 : afterEdgeSetup U (Proc.devRef .tc main_arg0) = U (Proc.devRef .tc main_arg0) := by
  after_results_simp <;> rfl
set_option maxHeartbeats 16000000 in
theorem setup_keeps_arg2 : afterEdgeSetup U (Proc.devRef .tc main_arg2) = U (Proc.devRef .tc main_arg2) := by
  after_results_simp <;> rfl
set_option maxHeartbeats 16000000 in
theorem setup_keeps_arg3 : afterEdgeSetup U (Proc.devRef .tc main_arg3) = U (Proc.devRef .tc main_arg3) := by
  after_results_simp <;> rfl
set_option maxHeartbeats 16000000 in
theorem setup_keeps_arg4 : afterEdgeSetup U (Proc.devRef .tc main_arg4) = U (Proc.devRef .tc main_arg4) := by
  after_results_simp <;> rfl
set_option maxHeartbeats 16000000 in
theorem setup_keeps_arg5 : afterEdgeSetup U (Proc.devRef .tc main_arg5) = U (Proc.devRef .tc main_arg5) := by
  after_results_simp <;> rfl

end Cert.KernelIdeal.Stretches

end
-- ==== Proof.Product512.lean ====
import proofs.«168590_j52089363366228_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! # The first product: every node's 512 input features against the 512 × 256 weight matrix

The region's grid walks the 25 blocks of 2000 node rows; the weight matrix stays whole in its window. At block `t`
the body multiplies rows `2000 t … 2000 t + 1999` of the features by the whole matrix into a zero accumulator. The
change of float format in front of the product is the identity on the extended reals, so entry (r, c) of the
result is the sum over `k` of feature (r, k) times weight (k, c): one function of the two arrays, whose blocks tile
the 50000 rows. -/

variable (V : (c : Dev nD) → (b : Ref sig .tc) → Buf (Elt Ideal) ((c : Thread nD τ).loc b))

theorem origin2' : (![0, 0] : Fin 2 → Nat) = fun _ => 0 := funext fun a => by fin_cases a <;> rfl

/-- Feature (row of `i`, `k`). -/
abbrev featAt512 (i : S50000x256.Idx) (k : Fin 512) : S50000x512.Idx := fun a => match a with
  | ⟨0, _⟩ => ⟨(i 0).val, (i 0).isLt⟩
  | ⟨1, _⟩ => ⟨k.val, k.isLt⟩
/-- Weight (`k`, column of `i`). -/
abbrev weightAt512 (i : S50000x256.Idx) (k : Fin 512) : S512x256.Idx := fun a => match a with
  | ⟨0, _⟩ => ⟨k.val, k.isLt⟩
  | ⟨1, _⟩ => ⟨(i 1).val, (i 1).isLt⟩

/-- The product of a 50000 × 512 array with a 512 × 256 one, entry by entry. -/
def product512 (x : S50000x512.Idx → Elt Ideal .f32) (w : S512x256.Idx → Elt Ideal .f32) : S50000x256.Idx → Elt Ideal .f32 :=
  fun i => ∑ k : Fin 512, x (featAt512 i k) * w (weightAt512 i k)

/-! The block product's operand indices, axis by axis. -/
theorem blockLhs512_0 (j : S2000x256.Idx) (q : dot_S2000x512_S512x256_S2000x256_1_0_0_1_n_n.contr.Idx) :
    (dot_S2000x512_S512x256_S2000x256_1_0_0_1_n_n.lhsIdx j q 0).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem blockLhs512_1 (j : S2000x256.Idx) (q : dot_S2000x512_S512x256_S2000x256_1_0_0_1_n_n.contr.Idx) :
    (dot_S2000x512_S512x256_S2000x256_1_0_0_1_n_n.lhsIdx j q 1).val = (q ⟨0, by decide⟩).val :=
  dot_S2000x512_S512x256_S2000x256_1_0_0_1_n_n.lhsIdx_val_of_single rfl j q
theorem blockRhs512_0 (j : S2000x256.Idx) (q : dot_S2000x512_S512x256_S2000x256_1_0_0_1_n_n.contr.Idx) :
    (dot_S2000x512_S512x256_S2000x256_1_0_0_1_n_n.rhsIdx j q 0).val = (q ⟨0, by decide⟩).val :=
  dot_S2000x512_S512x256_S2000x256_1_0_0_1_n_n.rhsIdx_val_of_single rfl j q
theorem blockRhs512_1 (j : S2000x256.Idx) (q : dot_S2000x512_S512x256_S2000x256_1_0_0_1_n_n.contr.Idx) :
    (dot_S2000x512_S512x256_S2000x256_1_0_0_1_n_n.rhsIdx j q 1).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Inside a block: feature (row of `j`, `k`) and weight (`k`, column of `j`). -/
abbrev blockFeat512 (j : S2000x256.Idx) (k : Fin 512) : S2000x512.Idx := fun a => match a with
  | ⟨0, _⟩ => ⟨(j 0).val, (j 0).isLt⟩
  | ⟨1, _⟩ => ⟨k.val, k.isLt⟩
abbrev blockWeight512 (j : S2000x256.Idx) (k : Fin 512) : S512x256.Idx := fun a => match a with
  | ⟨0, _⟩ => ⟨k.val, k.isLt⟩
  | ⟨1, _⟩ => ⟨(j 1).val, (j 1).isLt⟩

/-- The body's stored value at an entry of its block: the sum over `k` of the loaded feature times the loaded weight. -/
theorem product512_block (x0 : Vec Ideal S2000x512 .f32) (x1 : Vec Ideal S512x256 .f32) (j : S2000x256.Idx) :
    k0_pay1 x0 x1 j = ∑ k : Fin 512, x0 (blockFeat512 j k) * x1 (blockWeight512 j k) := by
  unfold k0_pay1
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = blockFeat512 j k := funext fun a => Fin.ext (by
    match a with
    | ⟨0, _⟩ => exact blockLhs512_0 _ _
    | ⟨1, _⟩ => exact (blockLhs512_1 _ _).trans hk)
  have er : dot_S2000x512_S512x256_S2000x256_1_0_0_1_n_n.rhsIdx j ((ValueIdx.contrEquiv1 dot_S2000x512_S512x256_S2000x256_1_0_0_1_n_n 512 rfl rfl).symm k) = blockWeight512 j k := funext fun a => Fin.ext (by
    match a with
    | ⟨0, _⟩ => exact (blockRhs512_0 _ _).trans hk
    | ⟨1, _⟩ => exact blockRhs512_1 _ _)
  rw [el, er]
  rfl

/-- The three windows' block indices at point `t`: the feature and result windows sit at block row `t`, the weight
    window stays at the origin. Decided over the 25 points. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `product512` of the two arrays as the region finds them. -/
theorem flushed0 (c : Dev nD) (t : Fin cfg0.N) :
    (dat0 V c).flushed 2 t = ((cfg0.win 2).blk t).view.read (Elt Ideal) (product512 (V c main_arg0) (V c main_arg2)) := by
  show (cfg0.win 2).cut (grid0.coords t) ((dat0 V c).after 2 t) = _
  rw [after0_2]
  unfold out0_2
  rw [View.canon_unit_zero origin2']
  simp only [View.ld_unit_zero (S := S2000x512) origin2', View.ld_unit_zero (S := S512x256) origin2']
  obtain ⟨e0, e1, e2, e3, e4, e5⟩ := blockIdx0 t
  funext j
  refine (product512_block _ _ j).trans ?_
  have h0 : ∀ k : Fin 512, ((cfg0.win 0).blk t).view.emb (blockFeat512 j k) = featAt512 (((cfg0.win 2).blk t).view.emb j) k := by
    intro k; funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ∀ k : Fin 512, ((cfg0.win 1).blk t).view.emb (blockWeight512 j k) = weightAt512 (((cfg0.win 2).blk t).view.emb j) k := by
    intro k; funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  have key : ∀ (x : S50000x512.Idx → Elt Ideal .f32) (w : S512x256.Idx → Elt Ideal .f32),
      (∑ k : Fin 512, x (((cfg0.win 0).blk t).view.emb (blockFeat512 j k)) * w (((cfg0.win 1).blk t).view.emb (blockWeight512 j k)))
        = product512 x w (((cfg0.win 2).blk t).view.emb j) := by
    intro x w; unfold product512; exact Finset.sum_congr rfl fun k _ => by rw [h0 k, h1 k]
  exact key (V c main_arg0) (V c main_arg2)

/-- An index of the array is in point `t`'s block iff each coordinate is in the block's range on its axis. -/
theorem mem_block0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every entry of the result lies in the block of the point its row falls in. -/
theorem covered0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨e0, e1, e2, e3, e4, e5⟩ := blockIdx0 t
  have e4' : win0_2.index t (0 : Fin 2) = (i 0).val / 2000 := e4
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The region's result array after its run: the product of its two input arrays as it found them. -/
theorem final0 (c : Dev nD) : (dat0 V c).arrAt 2 cfg0.N = product512 (V c main_arg0) (V c main_arg2) :=
  (dat0 V c).arrAt_eq_of_cover 2 _ (fun t _ => flushed0 V c t) covered0

end Cert.KernelIdeal.Layers

end
-- ==== Proof.BiasRelu.lean ====
import proofs.«168590_j52089363366228_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! # The first bias stage: the hidden layer's bias row added to every node's row, negatives cut to zero

The region's grid walks the 25 blocks of 2000 node rows. At block `t` the body loads rows `2000 t … 2000 t + 1999`
of the aggregated features and the one bias row, adds the bias to every row and takes the maximum with zero. Each
entry of the result depends only on the entry above it and on the bias of its column, so the blocks are the
restrictions of ONE function of the two arrays, and the 25 blocks tile the 50000 rows. -/

variable (V : (c : Dev nD) → (b : Ref sig .tc) → Buf (Elt Ideal) ((c : Thread nD τ).loc b))

theorem origin2 : (![0, 0] : Fin 2 → Nat) = fun _ => 0 := funext fun a => by fin_cases a <;> rfl

/-- The bias row's entry that stands over entry `i` of a 50000 × 256 array: row 0, the same column. -/
abbrev biasOver256 (i : S50000x256.Idx) : S1x256.Idx := fun a => match a with
  | ⟨0, _⟩ => ⟨0, Nat.zero_lt_one⟩
  | ⟨1, _⟩ => ⟨(i 1).val, (i 1).isLt⟩

/-- `max (a + b, 0)` entry by entry, `b` the bias of the entry's column. -/
def biasRelu (a : S50000x256.Idx → Elt Ideal .f32) (b : S1x256.Idx → Elt Ideal .f32) : S50000x256.Idx → Elt Ideal .f32 :=
  fun i => max (a i + b (biasOver256 i)) 0

/-- The body's stored value at row `p`, column `q` of its block: the loaded entry plus the bias of column `q`, cut at zero. -/
theorem biasRelu_block (x0 : Vec Ideal S2000x256 .f32) (x1 : Vec Ideal S1x256 .f32) (p : Fin 2000) (q : Fin 256) :
    k1_pay1 x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  show max (_ + _) (Ideal.ofBits .f32 0x00000000#32) = _
  rw [Ideal.ofBits_zero_f32]

/-- The three windows' block indices at point `t`: the feature and result windows sit at block row `t`, the bias
    window stays at the origin. Decided over the 25 points. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the two arrays as the region finds them. -/
theorem flushed1 (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero origin2]
  simp only [View.ld_unit_zero (S := S2000x256) origin2, View.ld_unit_zero (S := S1x256) origin2]
  obtain ⟨e0, e1, e2, e3, e4, e5⟩ := blockIdx1 t
  funext j
  obtain ⟨p, q, rfl⟩ : ∃ (p : Fin 2000) (q : Fin 256), j = ix2 p q := ⟨j 0, j 1, eq_ix2 j⟩
  refine (biasRelu_block _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * q.val = win1_2.index t (1 : Fin 2) * 256 + 1 * q.val; omega
  have h1 : ((cfg1.win 1).blk t).view.emb (ix2 (0 : Fin 1) q) = biasOver256 (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  have key : ∀ (a : S50000x256.Idx → Elt Ideal .f32) (b : S1x256.Idx → Elt Ideal .f32),
      max (a (((cfg1.win 0).blk t).view.emb (ix2 p q)) + b (((cfg1.win 1).blk t).view.emb (ix2 (0 : Fin 1) q))) 0
        = biasRelu a b (((cfg1.win 2).blk t).view.emb (ix2 p q)) := by
    intro a b; unfold biasRelu; rw [h0, h1]
  exact key (V c main_v43) (V c main_v44)

/-- An index of the array is in point `t`'s block iff each coordinate is in the block's range on its axis. -/
theorem mem_block1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- Every entry of the result lies in the block of the point its row falls in. -/
theorem covered1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  let t : Fin cfg1.N := ⟨(i 0).val / 2000, by show (i 0).val / 2000 < 25; omega⟩
  obtain ⟨e0, e1, e2, e3, e4, e5⟩ := blockIdx1 t
  have e4' : win1_2.index t (0 : Fin 2) = (i 0).val / 2000 := e4
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The region's result array after its run: `biasRelu` of its two input arrays as it found them. -/
theorem final1 (c : Dev nD) : (dat1 V c).arrAt 2 cfg1.N = biasRelu (V c main_v43) (V c main_v44) :=
  (dat1 V c).arrAt_eq_of_cover 2 _ (fun t _ => flushed1 V c t) covered1

end Cert.KernelIdeal.Layers

end
-- ==== Proof.Product256.lean ====
import proofs.«168590_j52089363366228_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! # The second product: every node's 256 hidden features against the 256 × 2 weight matrix

The grid again walks the 25 blocks of 2000 node rows with the weight matrix whole in its window. The body casts its
loaded block to its own shape (the identity), changes float format (the identity on the extended reals) and
multiplies into a zero accumulator: entry (r, c) of the result is the sum over `k` of hidden feature (r, k) times
weight (k, c), one function of the two arrays whose blocks tile the 50000 rows. -/

variable (V : (c : Dev nD) → (b : Ref sig .tc) → Buf (Elt Ideal) ((c : Thread nD τ).loc b))

theorem origin2'' : (![0, 0] : Fin 2 → Nat) = fun _ => 0 := funext fun a => by fin_cases a <;> rfl

/-- Hidden feature (row of `i`, `k`). -/
abbrev featAt256 (i : S50000x2.Idx) (k : Fin 256) : S50000x256.Idx := fun a => match a with
  | ⟨0, _⟩ => ⟨(i 0).val, (i 0).isLt⟩
  | ⟨1, _⟩ => ⟨k.val, k.isLt⟩
/-- Weight (`k`, column of `i`). -/
abbrev weightAt256 (i : S50000x2.Idx) (k : Fin 256) : S256x2.Idx := fun a => match a with
  | ⟨0, _⟩ => ⟨k.val, k.isLt⟩
  | ⟨1, _⟩ => ⟨(i 1).val, (i 1).isLt⟩

/-- The product of a 50000 × 256 array with a 256 × 2 one, entry by entry. -/
def product256 (x : S50000x256.Idx → Elt Ideal .f32) (w : S256x2.Idx → Elt Ideal .f32) : S50000x2.Idx → Elt Ideal .f32 :=
  fun i => ∑ k : Fin 256, x (featAt256 i k) * w (weightAt256 i k)

/-! The block product's operand indices, axis by axis. -/
theorem blockLhs256_0 (j : S2000x2.Idx) (q : dot_S2000x256_S256x2_S2000x2_1_0_0_1_n_n.contr.Idx) :
    (dot_S2000x256_S256x2_S2000x2_1_0_0_1_n_n.lhsIdx j q 0).val = (j 0).val := by
  unfold DotDims.lhsIdx
  rw [dif_neg (show ¬(0 : Fin S2000x256.rank) ∈ dot_S2000x256_S256x2_S2000x2_1_0_0_1_n_n.lhsBatch by decide), dif_pos (show (0 : Fin S2000x256.rank) ∈ dot_S2000x256_S256x2_S2000x2_1_0_0_1_n_n.lhsNonContracting by decide)]
  rfl
theorem blockLhs256_1 (j : S2000x2.Idx) (q : dot_S2000x256_S256x2_S2000x2_1_0_0_1_n_n.contr.Idx) :
    (dot_S2000x256_S256x2_S2000x2_1_0_0_1_n_n.lhsIdx j q 1).val = (q ⟨0, by decide⟩).val :=
  dot_S2000x256_S256x2_S2000x2_1_0_0_1_n_n.lhsIdx_val_of_single rfl j q
theorem blockRhs256_0 (j : S2000x2.Idx) (q : dot_S2000x256_S256x2_S2000x2_1_0_0_1_n_n.contr.Idx) :
    (dot_S2000x256_S256x2_S2000x2_1_0_0_1_n_n.rhsIdx j q 0).val = (q ⟨0, by decide⟩).val :=
  dot_S2000x256_S256x2_S2000x2_1_0_0_1_n_n.rhsIdx_val_of_single rfl j q
theorem blockRhs256_1 (j : S2000x2.Idx) (q : dot_S2000x256_S256x2_S2000x2_1_0_0_1_n_n.contr.Idx) :
    (dot_S2000x256_S256x2_S2000x2_1_0_0_1_n_n.rhsIdx j q 1).val = (j 1).val := by
  unfold DotDims.rhsIdx
  rw [dif_neg (show ¬(1 : Fin S256x2.rank) ∈ dot_S2000x256_S256x2_S2000x2_1_0_0_1_n_n.rhsBatch by decide), dif_pos (show (1 : Fin S256x2.rank) ∈ dot_S2000x256_S256x2_S2000x2_1_0_0_1_n_n.rhsNonContracting by decide)]
  rfl

/-- Inside a block: hidden feature (row of `j`, `k`) and weight (`k`, column of `j`). -/
abbrev blockFeat256 (j : S2000x2.Idx) (k : Fin 256) : S2000x256.Idx := fun a => match a with
  | ⟨0, _⟩ => ⟨(j 0).val, (j 0).isLt⟩
  | ⟨1, _⟩ => ⟨k.val, k.isLt⟩
abbrev blockWeight256 (j : S2000x2.Idx) (k : Fin 256) : S256x2.Idx := fun a => match a with
  | ⟨0, _⟩ => ⟨k.val, k.isLt⟩
  | ⟨1, _⟩ => ⟨(j 1).val, (j 1).isLt⟩

/-- The body's stored value at an entry of its block: the sum over `k` of the loaded hidden feature times the loaded weight. -/
theorem product256_block (x0 : Vec Ideal S2000x256 .f32) (x1 : Vec Ideal S256x2 .f32) (j : S2000x2.Idx) :
    k2_pay1 x0 x1 j = ∑ k : Fin 256, x0 (blockFeat256 j k) * x1 (blockWeight256 j k) := by
  unfold k2_pay1
  simp only [matmul]
  rw [Ideal.matmul_constant_zero_apply, ← Equiv.sum_comp (ValueIdx.contrEquiv1 dot_S2000x256_S256x2_S2000x2_1_0_0_1_n_n 256 rfl rfl).symm]
  refine Finset.sum_congr rfl fun k _ => ?_
  have hk := ValueIdx.contrEquiv1_symm_val dot_S2000x256_S256x2_S2000x2_1_0_0_1_n_n 256 rfl rfl k
  have el : dot_S2000x256_S256x2_S2000x2_1_0_0_1_n_n.lhsIdx j ((ValueIdx.contrEquiv1 dot_S2000x256_S256x2_S2000x2_1_0_0_1_n_n 256 rfl rfl).symm k) = blockFeat256 j k := funext fun a => Fin.ext (by
    match a with
    | ⟨0, _⟩ => exact blockLhs256_0 _ _
    | ⟨1, _⟩ => exact (blockLhs256_1 _ _).trans hk)
  have er : dot_S2000x256_S256x2_S2000x2_1_0_0_1_n_n.rhsIdx j ((ValueIdx.contrEquiv1 dot_S2000x256_S256x2_S2000x2_1_0_0_1_n_n 256 rfl rfl).symm k) = blockWeight256 j k := funext fun a => Fin.ext (by
    match a with
    | ⟨0, _⟩ => exact (blockRhs256_0 _ _).trans hk
    | ⟨1, _⟩ => exact blockRhs256_1 _ _)
  rw [el, er, shapeCast_self]
  rfl

/-- The three windows' block indices at point `t`: the feature and result windows sit at block row `t`, the weight
    window stays at the origin. Decided over the 25 points. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `product256` of the two arrays as the region finds them. -/
theorem flushed2 (c : Dev nD) (t : Fin cfg2.N) :
    (dat2 V c).flushed 2 t = ((cfg2.win 2).blk t).view.read (Elt Ideal) (product256 (V c main_v45) (V c main_arg4)) := by
  show (cfg2.win 2).cut (grid2.coords t) ((dat2 V c).after 2 t) = _
  rw [after2_2]
  unfold out2_2
  rw [View.canon_unit_zero origin2'']
  simp only [View.ld_unit_zero (S := S2000x256) origin2'', View.ld_unit_zero (S := S256x2) origin2'']
  obtain ⟨e0, e1, e2, e3, e4, e5⟩ := blockIdx2 t
  funext j
  refine (product256_block _ _ j).trans ?_
  have h0 : ∀ k : Fin 256, ((cfg2.win 0).blk t).view.emb (blockFeat256 j k) = featAt256 (((cfg2.win 2).blk t).view.emb j) k := by
    intro k; funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  have h1 : ∀ k : Fin 256, ((cfg2.win 1).blk t).view.emb (blockWeight256 j k) = weightAt256 (((cfg2.win 2).blk t).view.emb j) k := by
    intro k; funext a; apply Fin.ext
    match a with
    | ⟨0, _⟩ => show win2_1.index t (0 : Fin 2) * 256 + 1 * k.val = k.val; omega
    | ⟨1, _⟩ => show win2_1.index t (1 : Fin 2) * 2 + 1 * (j 1).val = win2_2.index t (1 : Fin 2) * 2 + 1 * (j 1).val; omega
  have key : ∀ (x : S50000x256.Idx → Elt Ideal .f32) (w : S256x2.Idx → Elt Ideal .f32),
      (∑ k : Fin 256, x (((cfg2.win 0).blk t).view.emb (blockFeat256 j k)) * w (((cfg2.win 1).blk t).view.emb (blockWeight256 j k)))
        = product256 x w (((cfg2.win 2).blk t).view.emb j) := by
    intro x w; unfold product256; exact Finset.sum_congr rfl fun k _ => by rw [h0 k, h1 k]
  exact key (V c main_v45) (V c main_arg4)

/-- An index of the array is in point `t`'s block iff each coordinate is in the block's range on its axis. -/
theorem mem_block2 (t : Fin cfg2.N) (i : S50000x2.Idx) :
    i ∈ ((cfg2.win 2).blk t).view.set ↔ ∀ a : Fin 2, win2_2.index t a * S2000x2.size a ≤ (i a).val ∧ (i a).val < win2_2.index t a * S2000x2.size a + S2000x2.size a := by
  show i ∈ ((View.whole main_v46).slice (win2_2.rect t)).set ↔ _
  rw [View.set_slice_whole, Rect.mem_set_unit]
  exact Iff.rfl

/-- Every entry of the result lies in the block of the point its row falls in. -/
theorem covered2 (i : S50000x2.Idx) : ∃ t : Fin cfg2.N, (cfg2.win 2).flush t = true ∧ i ∈ ((cfg2.win 2).blk t).view.set := by
  have hi0 : (i 0).val < 50000 := (i 0).isLt
  have hi1 : (i 1).val < 2 := (i 1).isLt
  let t : Fin cfg2.N := ⟨(i 0).val / 2000, by show (i 0).val / 2000 < 25; omega⟩
  obtain ⟨e0, e1, e2, e3, e4, e5⟩ := blockIdx2 t
  have e4' : win2_2.index t (0 : Fin 2) = (i 0).val / 2000 := e4
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 2 ≤ (i 1).val ∧ (i 1).val < win2_2.index t (1 : Fin 2) * 2 + 2; omega

/-- The region's result array after its run: the product of its two input arrays as it found them. -/
theorem final2 (c : Dev nD) : (dat2 V c).arrAt 2 cfg2.N = product256 (V c main_v45) (V c main_arg4) :=
  (dat2 V c).arrAt_eq_of_cover 2 _ (fun t _ => flushed2 V c t) covered2

end Cert.KernelIdeal.Layers

end
-- ==== Proof.BiasOut.lean ====
import proofs.«168590_j52089363366228_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! # The output bias: the two-entry bias row added to every node's row

The grid walks the 25 blocks of 2000 node rows; the bias row stays whole in its window. At block `t` the body adds
the bias of its column to every loaded entry, and nothing else: each entry of the result depends only on the entry
above it and on the bias of its column, and the 25 blocks tile the 50000 rows. -/

variable (V : (c : Dev nD) → (b : Ref sig .tc) → Buf (Elt Ideal) ((c : Thread nD τ).loc b))

theorem origin2''' : (![0, 0] : Fin 2 → Nat) = fun _ => 0 := funext fun a => by fin_cases a <;> rfl

/-- The bias row's entry that stands over entry `i` of a 50000 × 2 array: row 0, the same column. -/
abbrev biasOver2 (i : S50000x2.Idx) : S1x2.Idx := fun a => match a with
  | ⟨0, _⟩ => ⟨0, Nat.zero_lt_one⟩
  | ⟨1, _⟩ => ⟨(i 1).val, (i 1).isLt⟩

/-- `a + b` entry by entry, `b` the bias of the entry's column. -/
def biasOut (a : S50000x2.Idx → Elt Ideal .f32) (b : S1x2.Idx → Elt Ideal .f32) : S50000x2.Idx → Elt Ideal .f32 :=
  fun i => a i + b (biasOver2 i)

/-- The body's stored value at row `p`, column `q` of its block: the loaded entry plus the bias of column `q`. -/
theorem biasOut_block (x0 : Vec Ideal S2000x2 .f32) (x1 : Vec Ideal S1x2 .f32) (p : Fin 2000) (q : Fin 2) :
    k3_pay1 x0 x1 (ix2 p q) = x0 (ix2 p q) + x1 (ix2 (0 : Fin 1) q) := by
  unfold k3_pay1
  rw [addf_apply, shapeCast_self, shapeCast_self, broadcastTo_1b_ab_apply]

/-- The three windows' block indices at point `t`: the input and result windows sit at block row `t`, the bias
    window stays at the origin. Decided over the 25 points. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasOut` of the two arrays as the region finds them. -/
theorem flushed3 (c : Dev nD) (t : Fin cfg3.N) :
    (dat3 V c).flushed 2 t = ((cfg3.win 2).blk t).view.read (Elt Ideal) (biasOut (V c main_v59) (V c main_v60)) := by
  show (cfg3.win 2).cut (grid3.coords t) ((dat3 V c).after 2 t) = _
  rw [after3_2]
  unfold out3_2
  rw [View.canon_unit_zero origin2''']
  simp only [View.ld_unit_zero (S := S2000x2) origin2''', View.ld_unit_zero (S := S1x2) origin2''']
  obtain ⟨e0, e1, e2, e3, e4, e5⟩ := blockIdx3 t
  funext j
  obtain ⟨p, q, rfl⟩ : ∃ (p : Fin 2000) (q : Fin 2), j = ix2 p q := ⟨j 0, j 1, eq_ix2 j⟩
  refine (biasOut_block _ _ p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 2 + 1 * q.val = win3_2.index t (1 : Fin 2) * 2 + 1 * q.val; omega
  have h1 : ((cfg3.win 1).blk t).view.emb (ix2 (0 : Fin 1) q) = biasOver2 (((cfg3.win 2).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 2 + 1 * q.val = win3_2.index t (1 : Fin 2) * 2 + 1 * q.val; omega
  have key : ∀ (a : S50000x2.Idx → Elt Ideal .f32) (b : S1x2.Idx → Elt Ideal .f32),
      a (((cfg3.win 0).blk t).view.emb (ix2 p q)) + b (((cfg3.win 1).blk t).view.emb (ix2 (0 : Fin 1) q))
        = biasOut a b (((cfg3.win 2).blk t).view.emb (ix2 p q)) := by
    intro a b; unfold biasOut; rw [h0, h1]
  exact key (V c main_v59) (V c main_v60)

/-- An index of the array is in point `t`'s block iff each coordinate is in the block's range on its axis. -/
theorem mem_block3 (t : Fin cfg3.N) (i : S50000x2.Idx) :
    i ∈ ((cfg3.win 2).blk t).view.set ↔ ∀ a : Fin 2, win3_2.index t a * S2000x2.size a ≤ (i a).val ∧ (i a).val < win3_2.index t a * S2000x2.size a + S2000x2.size a := by
  show i ∈ ((View.whole main_v61).slice (win3_2.rect t)).set ↔ _
  rw [View.set_slice_whole, Rect.mem_set_unit]
  exact Iff.rfl

/-- Every entry of the result lies in the block of the point its row falls in. -/
theorem covered3 (i : S50000x2.Idx) : ∃ t : Fin cfg3.N, (cfg3.win 2).flush t = true ∧ i ∈ ((cfg3.win 2).blk t).view.set := by
  have hi0 : (i 0).val < 50000 := (i 0).isLt
  have hi1 : (i 1).val < 2 := (i 1).isLt
  let t : Fin cfg3.N := ⟨(i 0).val / 2000, by show (i 0).val / 2000 < 25; omega⟩
  obtain ⟨e0, e1, e2, e3, e4, e5⟩ := blockIdx3 t
  have e4' : win3_2.index t (0 : Fin 2) = (i 0).val / 2000 := e4
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 2 ≤ (i 1).val ∧ (i 1).val < win3_2.index t (1 : Fin 2) * 2 + 2; omega

/-- The region's result array after its run: `biasOut` of its two input arrays as it found them. -/
theorem final3 (c : Dev nD) : (dat3 V c).arrAt 2 cfg3.N = biasOut (V c main_v59) (V c main_v60) :=
  (dat3 V c).arrAt_eq_of_cover 2 _ (fun t _ => flushed3 V c t) covered3

end Cert.KernelIdeal.Layers

end
-- ==== Proof.RefStages.lean ====
import proofs.«168590_j52089363366228_1_alg».proof.Proof.RefRead
import proofs.«168590_j52089363366228_1_alg».proof.Proof.HostStretches
import proofs.«168590_j52089363366228_1_alg».proof.Proof.Product512
import proofs.«168590_j52089363366228_1_alg».proof.Proof.BiasRelu
import proofs.«168590_j52089363366228_1_alg».proof.Proof.Product256
import proofs.«168590_j52089363366228_1_alg».proof.Proof.BiasOut
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal Cert.ReferenceIdeal.ReadP
open Cert.KernelIdeal.Layers Cert.KernelIdeal.Stretches

/-! # The reference, stage by stage, in the kernel side's words

The reference is one line of host operations. Six of its stages are where the kernel's program differs: the two
products, the two message passings and the two bias stages. Each is the corresponding function of the kernel
side applied to the stage before it: the message passings are the same operations on both sides; a host
`dot_general` is the sum of products over the contracted axis; the reference's bias, broadcast first to one row and
then to every row, reads at an entry the bias of the entry's column, exactly what the kernel's bias row, laid out by a
reshape, gives there; and the reference's `relu` is the maximum with zero. -/

section AnyValues
variable {F : FTy → Type} [FloatOps F]

/-- The reference's first message passing is `aggregate256` of its first product. -/
theorem ref_hidden_messages (x0 : (⟨S50000x512, .f32⟩ : BufTy).Contents (Elt F)) (x1 : (⟨S2x800000, .i32⟩ : BufTy).Contents (Elt F)) (x2 : (⟨S512x256, .f32⟩ : BufTy).Contents (Elt F)) :
    val_main_v43 (F := F) x0 x1 x2 = aggregate256 (val_main_v30 (F := F) x0 x2) (val_main_v5 (F := F) x1) (val_main_v6 (F := F) x1) (val_main_v29 (F := F) x1) := rfl

/-- The reference's second message passing is `aggregate2` of its second product. -/
theorem ref_output_messages (x0 : (⟨S50000x512, .f32⟩ : BufTy).Contents (Elt F)) (x1 : (⟨S2x800000, .i32⟩ : BufTy).Contents (Elt F)) (x2 : (⟨S512x256, .f32⟩ : BufTy).Contents (Elt F)) (x3 : (⟨S256, .f32⟩ : BufTy).Contents (Elt F)) (x4 : (⟨S256x2, .f32⟩ : BufTy).Contents (Elt F)) :
    val_main_v61 (F := F) x0 x1 x2 x3 x4 = aggregate2 (val_main_v48 (F := F) x0 x1 x2 x3 x4) (val_main_v5 (F := F) x1) (val_main_v6 (F := F) x1) (val_main_v29 (F := F) x1) := rfl

end AnyValues

/-- The reference's first `dot_general` is the sum of products. -/
theorem ref_product512 (x0 : (⟨S50000x512, .f32⟩ : BufTy).Contents (Elt Ideal)) (x2 : (⟨S512x256, .f32⟩ : BufTy).Contents (Elt Ideal)) :
    val_main_v30 (F := Ideal) x0 x2 = product512 x0 x2 := by
  funext i
  rw [val_main_v30_apply]
  rfl

/-- The reference's second `dot_general` is the sum of products over the stage before it. -/
theorem ref_product256 (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) :
    val_main_v48 (F := Ideal) x0 x1 x2 x3 x4 = product256 (val_main_v47 (F := Ideal) x0 x1 x2 x3) x4 := by
  funext i
  rw [val_main_v48_apply]
  rfl

/-- The reference's hidden bias and `relu`: at an entry, the stage before plus the bias of its column, cut at zero. -/
theorem ref_biasRelu (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) :
    val_main_v47 (F := Ideal) x0 x1 x2 x3
      = biasRelu (val_main_v43 (F := Ideal) x0 x1 x2) (shapeCast Cert.KernelIdeal.S1x256 x3 Cert.KernelIdeal.Gen.shapeCasts_S256_S1x256) := by
  funext i
  rw [val_main_v47_apply, val_main_v46_apply, val_main_v45_apply, val_main_v44_apply, val_main_call1_v0_apply, val_main_call1_cst_apply]
  have e1 : biasOver256 i = ix2 (0 : Fin 1) (⟨(i 1).val, (i 1).isLt⟩ : Fin 256) :=
    funext fun a => by match a with | ⟨0, _⟩ => rfl | ⟨1, _⟩ => rfl
  have e2 : idx_main_v44 (idx_main_v45 i) = ix1 (⟨(i 1).val, (i 1).isLt⟩ : Fin 256) :=
    funext fun a => by match a with | ⟨0, _⟩ => rfl
  unfold biasRelu
  rw [e1, shapeCast_a_1a_apply, ← e2, Ideal.maximumf_def, Ideal.addf_def, Ideal.ofBits_def, Ideal.ofBits_zero_f32]

/-- The reference's output bias: at an entry, the stage before plus the bias of its column. -/
theorem ref_biasOut (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) :
    val_main_v64 (F := Ideal) x0 x1 x2 x3 x4 x5
      = biasOut (val_main_v61 (F := Ideal) x0 x1 x2 x3 x4) (shapeCast Cert.KernelIdeal.S1x2 x5 Cert.KernelIdeal.Gen.shapeCasts_S2_S1x2) := by
  funext i
  rw [val_main_v64_apply, val_main_v63_apply, val_main_v62_apply]
  have e1 : biasOver2 i = ix2 (0 : Fin 1) (⟨(i 1).val, (i 1).isLt⟩ : Fin 2) :=
    funext fun a => by match a with | ⟨0, _⟩ => rfl | ⟨1, _⟩ => rfl
  have e2 : idx_main_v62 (idx_main_v63 i) = ix1 (⟨(i 1).val, (i 1).isLt⟩ : Fin 2) :=
    funext fun a => by match a with | ⟨0, _⟩ => rfl
  unfold biasOut
  rw [e1, shapeCast_a_1a_apply, ← e2, Ideal.addf_def]

/-- The reference's result, as the kernel side's functions composed: product, message passing, bias and cut at zero,
    product, message passing, bias. -/
theorem reference_value (x0 : (⟨S50000x512, .f32⟩ : BufTy).Contents (Elt Ideal)) (x1 : (⟨S2x800000, .i32⟩ : BufTy).Contents (Elt Ideal)) (x2 : (⟨S512x256, .f32⟩ : BufTy).Contents (Elt Ideal)) (x3 : (⟨S256, .f32⟩ : BufTy).Contents (Elt Ideal)) (x4 : (⟨S256x2, .f32⟩ : BufTy).Contents (Elt Ideal)) (x5 : (⟨S2, .f32⟩ : BufTy).Contents (Elt Ideal)) :
    val_main_v64 (F := Ideal) x0 x1 x2 x3 x4 x5
      = biasOut
          (aggregate2
            (product256
              (biasRelu
                (aggregate256 (product512 x0 x2) (val_main_v5 (F := Ideal) x1) (val_main_v6 (F := Ideal) x1) (val_main_v29 (F := Ideal) x1))
                (shapeCast Cert.KernelIdeal.S1x256 x3 Cert.KernelIdeal.Gen.shapeCasts_S256_S1x256))
              x4)
            (val_main_v5 (F := Ideal) x1) (val_main_v6 (F := Ideal) x1) (val_main_v29 (F := Ideal) x1))
          (shapeCast Cert.KernelIdeal.S1x2 x5 Cert.KernelIdeal.Gen.shapeCasts_S2_S1x2) := by
  rw [ref_biasOut, ref_output_messages, ref_product256, ref_biasRelu, ref_hidden_messages, ref_product512]

end Cert.Bridge

end
-- ==== Proof.Assembly.lean ====
import proofs.«168590_j52089363366228_1_alg».proof.Proof.KernelRun
import proofs.«168590_j52089363366228_1_alg».proof.Proof.RefStages

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.KernelIdeal.Layers Cert.KernelIdeal.Stretches
open Cert.ReferenceIdeal.ReadP (val_main_v5 val_main_v6 val_main_v29 val_main_v64)

/-! # The kernel program's result, from the launch memory

The program is nine segments: the edge set-up, the first product, the first message passing, the hidden bias with
its cut at zero, the second product, the second message passing, the output bias. The buffer contents at each
boundary are named by the frame; here each boundary's contents are read at the buffers the next segment takes,
walking from the launch memory `m` to the result buffer. A region's result array is its whole-array function of its
two input arrays; every other buffer passes a region untouched; a host stretch's results are its operations' terms
and it keeps what it does not write. -/

variable (m : (ℓ : Loc nD τ sig) → Buf (Elt Ideal) ℓ) (ρ : Dev nD → PrngReg) (c : Dev nD)

/-! ## At the first region's entry -/

theorem entry_sources : W3 m ρ c (Proc.devRef .tc main_v5) = (val_main_v5 (F := Ideal) (m ((c : Thread nD τ).loc main_arg1))) := edge_sources (W0 m ρ c)
theorem entry_targets : W3 m ρ c (Proc.devRef .tc main_v6) = (val_main_v6 (F := Ideal) (m ((c : Thread nD τ).loc main_arg1))) := edge_targets (W0 m ρ c)
theorem entry_weights : W3 m ρ c (Proc.devRef .tc main_v29) = (val_main_v29 (F := Ideal) (m ((c : Thread nD τ).loc main_arg1))) := edge_weights (W0 m ρ c)
theorem entry_arg0 : W3 m ρ c (Proc.devRef .tc main_arg0) = (m ((c : Thread nD τ).loc main_arg0)) := setup_keeps_arg0 (W0 m ρ c)
theorem entry_arg2 : W3 m ρ c (Proc.devRef .tc main_arg2) = (m ((c : Thread nD τ).loc main_arg2)) := setup_keeps_arg2 (W0 m ρ c)
theorem entry_arg3 : W3 m ρ c (Proc.devRef .tc main_arg3) = (m ((c : Thread nD τ).loc main_arg3)) := setup_keeps_arg3 (W0 m ρ c)
theorem entry_arg4 : W3 m ρ c (Proc.devRef .tc main_arg4) = (m ((c : Thread nD τ).loc main_arg4)) := setup_keeps_arg4 (W0 m ρ c)
theorem entry_arg5 : W3 m ρ c (Proc.devRef .tc main_arg5) = (m ((c : Thread nD τ).loc main_arg5)) := setup_keeps_arg5 (W0 m ρ c)

/-! ## After the first product -/

theorem first_product : W4 m ρ c (Proc.devRef .tc main_v30) = (product512 (m ((c : Thread nD τ).loc main_arg0)) (m ((c : Thread nD τ).loc main_arg2))) :=
  (W4_arr m ρ c 2).trans ((final0 (V3 m ρ) c).trans (congrArg₂ product512 (entry_arg0 m ρ c) (entry_arg2 m ρ c)))

theorem product_keeps_sources : W4 m ρ c (Proc.devRef .tc main_v5) = (val_main_v5 (F := Ideal) (m ((c : Thread nD τ).loc main_arg1))) := (W4_of_ne m ρ c main_v5 (by decide)).trans (entry_sources m ρ c)
theorem product_keeps_targets : W4 m ρ c (Proc.devRef .tc main_v6) = (val_main_v6 (F := Ideal) (m ((c : Thread nD τ).loc main_arg1))) := (W4_of_ne m ρ c main_v6 (by decide)).trans (entry_targets m ρ c)
theorem product_keeps_weights : W4 m ρ c (Proc.devRef .tc main_v29) = (val_main_v29 (F := Ideal) (m ((c : Thread nD τ).loc main_arg1))) := (W4_of_ne m ρ c main_v29 (by decide)).trans (entry_weights m ρ c)
theorem product_keeps_arg3 : W4 m ρ c (Proc.devRef .tc main_arg3) = (m ((c : Thread nD τ).loc main_arg3)) := (W4_of_ne m ρ c main_arg3 (by decide)).trans (entry_arg3 m ρ c)
theorem product_keeps_arg4 : W4 m ρ c (Proc.devRef .tc main_arg4) = (m ((c : Thread nD τ).loc main_arg4)) := (W4_of_ne m ρ c main_arg4 (by decide)).trans (entry_arg4 m ρ c)
theorem product_keeps_arg5 : W4 m ρ c (Proc.devRef .tc main_arg5) = (m ((c : Thread nD τ).loc main_arg5)) := (W4_of_ne m ρ c main_arg5 (by decide)).trans (entry_arg5 m ρ c)

/-! ## After the first message passing -/

theorem first_messages : W5 m ρ c (Proc.devRef .tc main_v43) = (aggregate256 (product512 (m ((c : Thread nD τ).loc main_arg0)) (m ((c : Thread nD τ).loc main_arg2))) (val_main_v5 (F := Ideal) (m ((c : Thread nD τ).loc main_arg1))) (val_main_v6 (F := Ideal) (m ((c : Thread nD τ).loc main_arg1))) (val_main_v29 (F := Ideal) (m ((c : Thread nD τ).loc main_arg1)))) :=
  (hidden_messages (W4 m ρ c)).trans (by
    rw [first_product m ρ c, product_keeps_sources m ρ c, product_keeps_targets m ρ c, product_keeps_weights m ρ c])

theorem hidden_row : W5 m ρ c (Proc.devRef .tc main_v44) = (shapeCast S1x256 (m ((c : Thread nD τ).loc main_arg3)) shapeCasts_S256_S1x256) :=
  (hidden_bias_row (W4 m ρ c)).trans (by rw [product_keeps_arg3 m ρ c])

theorem messages_keep_sources : W5 m ρ c (Proc.devRef .tc main_v5) = (val_main_v5 (F := Ideal) (m ((c : Thread nD τ).loc main_arg1))) := (hidden_keeps_sources (W4 m ρ c)).trans (product_keeps_sources m ρ c)
theorem messages_keep_targets : W5 m ρ c (Proc.devRef .tc main_v6) = (val_main_v6 (F := Ideal) (m ((c : Thread nD τ).loc main_arg1))) := (hidden_keeps_targets (W4 m ρ c)).trans (product_keeps_targets m ρ c)
theorem messages_keep_weights : W5 m ρ c (Proc.devRef .tc main_v29) = (val_main_v29 (F := Ideal) (m ((c : Thread nD τ).loc main_arg1))) := (hidden_keeps_weights (W4 m ρ c)).trans (product_keeps_weights m ρ c)
theorem messages_keep_arg4 : W5 m ρ c (Proc.devRef .tc main_arg4) = (m ((c : Thread nD τ).loc main_arg4)) := (hidden_keeps_arg4 (W4 m ρ c)).trans (product_keeps_arg4 m ρ c)
theorem messages_keep_arg5 : W5 m ρ c (Proc.devRef .tc main_arg5) = (m ((c : Thread nD τ).loc main_arg5)) := (hidden_keeps_arg5 (W4 m ρ c)).trans (product_keeps_arg5 m ρ c)

/-! ## After the hidden bias -/

theorem hidden_layer : W6 m ρ c (Proc.devRef .tc main_v45) = (biasRelu (aggregate256 (product512 (m ((c : Thread nD τ).loc main_arg0)) (m ((c : Thread nD τ).loc main_arg2))) (val_main_v5 (F := Ideal) (m ((c : Thread nD τ).loc main_arg1))) (val_main_v6 (F := Ideal) (m ((c : Thread nD τ).loc main_arg1))) (val_main_v29 (F := Ideal) (m ((c : Thread nD τ).loc main_arg1)))) (shapeCast S1x256 (m ((c : Thread nD τ).loc main_arg3)) shapeCasts_S256_S1x256)) :=
  (W6_arr m ρ c 2).trans ((final1 (V5 m ρ) c).trans (congrArg₂ biasRelu (first_messages m ρ c) (hidden_row m ρ c)))

theorem hidden_keeps_sources' : W6 m ρ c (Proc.devRef .tc main_v5) = (val_main_v5 (F := Ideal) (m ((c : Thread nD τ).loc main_arg1))) := (W6_of_ne m ρ c main_v5 (by decide)).trans (messages_keep_sources m ρ c)
theorem hidden_keeps_targets' : W6 m ρ c (Proc.devRef .tc main_v6) = (val_main_v6 (F := Ideal) (m ((c : Thread nD τ).loc main_arg1))) := (W6_of_ne m ρ c main_v6 (by decide)).trans (messages_keep_targets m ρ c)
theorem hidden_keeps_weights' : W6 m ρ c (Proc.devRef .tc main_v29) = (val_main_v29 (F := Ideal) (m ((c : Thread nD τ).loc main_arg1))) := (W6_of_ne m ρ c main_v29 (by decide)).trans (messages_keep_weights m ρ c)
theorem hidden_keeps_arg4' : W6 m ρ c (Proc.devRef .tc main_arg4) = (m ((c : Thread nD τ).loc main_arg4)) := (W6_of_ne m ρ c main_arg4 (by decide)).trans (messages_keep_arg4 m ρ c)
theorem hidden_keeps_arg5' : W6 m ρ c (Proc.devRef .tc main_arg5) = (m ((c : Thread nD τ).loc main_arg5)) := (W6_of_ne m ρ c main_arg5 (by decide)).trans (messages_keep_arg5 m ρ c)

/-! ## After the second product -/

theorem second_product : W7 m ρ c (Proc.devRef .tc main_v46) = (product256 (biasRelu (aggregate256 (product512 (m ((c : Thread nD τ).loc main_arg0)) (m ((c : Thread nD τ).loc main_arg2))) (val_main_v5 (F := Ideal) (m ((c : Thread nD τ).loc main_arg1))) (val_main_v6 (F := Ideal) (m ((c : Thread nD τ).loc main_arg1))) (val_main_v29 (F := Ideal) (m ((c : Thread nD τ).loc main_arg1)))) (shapeCast S1x256 (m ((c : Thread nD τ).loc main_arg3)) shapeCasts_S256_S1x256)) (m ((c : Thread nD τ).loc main_arg4))) :=
  (W7_arr m ρ c 2).trans ((final2 (V6 m ρ) c).trans (congrArg₂ product256 (hidden_layer m ρ c) (hidden_keeps_arg4' m ρ c)))

theorem product2_keeps_sources : W7 m ρ c (Proc.devRef .tc main_v5) = (val_main_v5 (F := Ideal) (m ((c : Thread nD τ).loc main_arg1))) := (W7_of_ne m ρ c main_v5 (by decide)).trans (hidden_keeps_sources' m ρ c)
theorem product2_keeps_targets : W7 m ρ c (Proc.devRef .tc main_v6) = (val_main_v6 (F := Ideal) (m ((c : Thread nD τ).loc main_arg1))) := (W7_of_ne m ρ c main_v6 (by decide)).trans (hidden_keeps_targets' m ρ c)
theorem product2_keeps_weights : W7 m ρ c (Proc.devRef .tc main_v29) = (val_main_v29 (F := Ideal) (m ((c : Thread nD τ).loc main_arg1))) := (W7_of_ne m ρ c main_v29 (by decide)).trans (hidden_keeps_weights' m ρ c)
theorem product2_keeps_arg5 : W7 m ρ c (Proc.devRef .tc main_arg5) = (m ((c : Thread nD τ).loc main_arg5)) := (W7_of_ne m ρ c main_arg5 (by decide)).trans (hidden_keeps_arg5' m ρ c)

/-! ## After the second message passing -/

theorem second_messages : W8 m ρ c (Proc.devRef .tc main_v59) = (aggregate2 (product256 (biasRelu (aggregate256 (product512 (m ((c : Thread nD τ).loc main_arg0)) (m ((c : Thread nD τ).loc main_arg2))) (val_main_v5 (F := Ideal) (m ((c : Thread nD τ).loc main_arg1))) (val_main_v6 (F := Ideal) (m ((c : Thread nD τ).loc main_arg1))) (val_main_v29 (F := Ideal) (m ((c : Thread nD τ).loc main_arg1)))) (shapeCast S1x256 (m ((c : Thread nD τ).loc main_arg3)) shapeCasts_S256_S1x256)) (m ((c : Thread nD τ).loc main_arg4))) (val_main_v5 (F := Ideal) (m ((c : Thread nD τ).loc main_arg1))) (val_main_v6 (F := Ideal) (m ((c : Thread nD τ).loc main_arg1))) (val_main_v29 (F := Ideal) (m ((c : Thread nD τ).loc main_arg1)))) :=
  (output_messages (W7 m ρ c)).trans (by
    rw [second_product m ρ c, product2_keeps_sources m ρ c, product2_keeps_targets m ρ c, product2_keeps_weights m ρ c])

theorem output_row : W8 m ρ c (Proc.devRef .tc main_v60) = (shapeCast S1x2 (m ((c : Thread nD τ).loc main_arg5)) shapeCasts_S2_S1x2) :=
  (output_bias_row (W7 m ρ c)).trans (by rw [product2_keeps_arg5 m ρ c])

/-! ## The result -/

theorem output_layer : W9 m ρ c (Proc.devRef .tc main_v61) = (biasOut (aggregate2 (product256 (biasRelu (aggregate256 (product512 (m ((c : Thread nD τ).loc main_arg0)) (m ((c : Thread nD τ).loc main_arg2))) (val_main_v5 (F := Ideal) (m ((c : Thread nD τ).loc main_arg1))) (val_main_v6 (F := Ideal) (m ((c : Thread nD τ).loc main_arg1))) (val_main_v29 (F := Ideal) (m ((c : Thread nD τ).loc main_arg1)))) (shapeCast S1x256 (m ((c : Thread nD τ).loc main_arg3)) shapeCasts_S256_S1x256)) (m ((c : Thread nD τ).loc main_arg4))) (val_main_v5 (F := Ideal) (m ((c : Thread nD τ).loc main_arg1))) (val_main_v6 (F := Ideal) (m ((c : Thread nD τ).loc main_arg1))) (val_main_v29 (F := Ideal) (m ((c : Thread nD τ).loc main_arg1)))) (shapeCast S1x2 (m ((c : Thread nD τ).loc main_arg5)) shapeCasts_S2_S1x2)) :=
  (W9_arr m ρ c 2).trans ((final3 (V8 m ρ) c).trans (congrArg₂ biasOut (second_messages m ρ c) (output_row m ρ c)))

/-- The kernel program's result buffer ends at the reference's result stage of the launch arguments. -/
theorem kernel_value : W9 m ρ c (Proc.devRef .tc main_v61)
    = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (output_layer m ρ c).trans (Cert.Bridge.reference_value _ _ _ _ _ _).symm

end Cert.KernelIdeal.Whole

end
-- ==== Proof.lean ====
/- A two-layer graph convolution, kernel against reference, over the extended reals.

   Both programs compute, from node features `x` (50000 × 512), an edge list (2 × 800000) and two layers' weights and
   biases, the same chain: append a self loop to every node; weight each edge by the inverse square roots of its end
   nodes' degrees; then twice (product of the node features with the layer's weights; every edge carries its source
   node's row, scaled by the edge's weight, into its target node's row; add the layer's bias), with a cut at zero after
   the first layer. The edge set-up and the two message passings are the same host operations in both programs. They
   differ in where the products and the bias stages run: the kernel program has four grid regions for them, each
   walking the 50000 node rows in 25 blocks of 2000, where the reference has `dot_general`, broadcasts, `add` and
   `maximum`.

   Over the extended reals a change of float format is the identity, a block product into a zero accumulator and a
   `dot_general` are both the plain sum of products over the contracted axis, and a maximum is a maximum, so each
   region's result array is the reference stage's function of the region's two input arrays, entry by entry; no law
   beyond that is used, and the inputs' finiteness is never opened. The result buffers then agree by congruence along
   the chain.

   The three frames: the two kernel programs' are the frame certificates of their four regions; the reference has no
   region, and its frame is its run with the result dropped. The ideal pass rewrote nothing, so `preserves` is `True`. -/
import proofs.«168590_j52089363366228_1_alg».proof.Defs
import proofs.«168590_j52089363366228_1_alg».proof.Proof.Gen.Kernel
import proofs.«168590_j52089363366228_1_alg».proof.Proof.Gen.Kernel.Frame
import proofs.«168590_j52089363366228_1_alg».proof.Proof.Gen.KernelIdeal
import proofs.«168590_j52089363366228_1_alg».proof.Proof.Gen.KernelIdeal.Frame
import proofs.«168590_j52089363366228_1_alg».proof.Proof.Gen.ReferenceIdeal
import proofs.«168590_j52089363366228_1_alg».proof.Proof.Gen.Pre_finite_inputs
import proofs.«168590_j52089363366228_1_alg».proof.Proof.RefRead
import proofs.«168590_j52089363366228_1_alg».proof.Proof.KernelRun
import proofs.«168590_j52089363366228_1_alg».proof.Proof.Assembly
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with their result buffer at the reference's last stage of the (agreeing) arguments: the kernel
    program by walking its nine segments from the launch memory, the reference by its run. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.kernel_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
